-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192 : Shape := ⟨1, ![8192]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1 .f32) (main_arg1 : FVec F S8192 .f32) (main_arg2 : FVec F S8192 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x1 : Shape := ⟨2, ![8192, 1]⟩
abbrev S8192 : Shape := ⟨1, ![8192]⟩
abbrev S1x8192 : Shape := ⟨2, ![1, 8192]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192, .f32⟩
  | .hbm, ⟨7, _⟩ => ⟨S1x8192, .f32⟩
  | .hbm, ⟨8, _⟩ => ⟨S8192x1, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192x1_S8192 : S8192x1.ShapeCasts S8192
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  natLt_1_32 : 1 < 32
  reduces_S512x2048_S512 : S512x2048.Reduces [1] S512
  shapeCasts_S512_S512x1 : S512.ShapeCasts S512x1
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

abbrev win0_0 : Pipeline.Window sig grid0 :=
  Pipeline.Window.ofSpec (Memref.whole main_v1) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S1x8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x8192, .i1⟩
  | .hbm, ⟨9, _⟩ => ⟨S8192x8192, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8192x1_S8192 : S8192x1.ShapeCasts S8192
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  reducesTo_S8192_S_d0 : S8192.ReducesTo [0] S_

variable [Facts₀]

class Facts : Prop extends Facts₀ where

variable [Facts]
-- ==== Proof.Pieces.lean ====
/-
  What one grid point leaves behind, as values. The body keeps a running column of 512 partial sums in a
  scratch buffer: at the first column tile of a row block it stores zeros and then adds the tile's
  contribution; at every later tile it adds that tile's contribution to what the tile before left; at the
  last tile it also copies the column into the output block. Each of these is the single arithmetic term
  `k0_pay2 rows cols weights acc` (the accumulator `acc` plus the tile's masked row sums) applied to the
  right accumulator: the zero block `k0_pay1` at a first tile, the previous contents otherwise.
-/
import proofs.«137045_j65515431133625_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Risk

open Cert.KernelIdeal Cert.KernelIdeal.Gen

variable {F : FTy → Type} [FloatOps F]

/-- Every load and store of the body goes through the whole buffer: the rectangle at the origin. -/
theorem origin2 : (![0, 0] : Fin 2 → Nat) = fun _ => 0 := funext fun a => by fin_cases a <;> rfl

/-- First column tile of a row block: the scratch ends at the tile's contribution added to the zero block
    (the zeros are stored, read back, and the sum stored over them). -/
theorem scratch_reset (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : cond0_0 i) (hc1 : ¬cond0_1 i) (x0 : Vec F S512x1 .f32) (x1 x2 : Vec F S1x2048 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x1) origin2, View.readCov_unit_zero (S := S512x1) _ origin2]
  simp only [View.readAt_eq_ld, h2.read_unread, h3.read_unread, h4.read_unread,
    View.ld_unit_zero (S := S512x1) origin2, View.ld_unit_zero (S := S1x2048) origin2]

/-- A middle column tile: the scratch ends at the tile's contribution added to what it held. -/
theorem scratch_step (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : ¬cond0_0 i) (hc1 : ¬cond0_1 i) (x0 : Vec F S512x1 .f32) (x1 x2 : Vec F S1x2048 .f32) (xs : Vec F S512x1 .f32) :
    sout0_B_0 c i a2 h2 a3 h3 a4 h4 a5 h5 a6 h6 hc0 hc1 x0 x1 x2 xs = k0_pay2 x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero (S := S512x1) origin2]
  simp only [View.readAt_eq_ld, h2.read_unread, h3.read_unread, h4.read_unread, h6.read_unread,
    View.ld_unit_zero (S := S512x1) origin2, View.ld_unit_zero (S := S1x2048) origin2]

/-- The last column tile: the scratch ends the same way, -/
theorem scratch_last (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : ¬cond0_0 i) (hc1 : cond0_1 i) (x0 : Vec F S512x1 .f32) (x1 x2 : Vec F S1x2048 .f32) (xs : Vec F S512x1 .f32) :
    sout0_C_0 c i a2 h2 a3 h3 a4 h4 a5 h5 a6 h6 hc0 hc1 x0 x1 x2 xs = k0_pay2 x0 x1 x2 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero (S := S512x1) origin2]
  simp only [View.readAt_eq_ld, h2.read_unread, h3.read_unread, h4.read_unread, h6.read_unread,
    View.ld_unit_zero (S := S512x1) origin2, View.ld_unit_zero (S := S1x2048) origin2]

/-- and the output block is a copy of it: the finished column of sums. -/
theorem out_last (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : ¬cond0_0 i) (hc1 : cond0_1 i) (x0 : Vec F S512x1 .f32) (x1 x2 : Vec F S1x2048 .f32) (xs : Vec F S512x1 .f32) :
    out0_C_3 c i a2 h2 a3 h3 a4 h4 a5 h5 a6 h6 hc0 hc1 x0 x1 x2 xs = k0_pay2 x0 x1 x2 xs := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero (S := S512x1) origin2, View.readCov_unit_zero (S := S512x1) _ origin2]
  simp only [View.readAt_eq_ld, h2.read_unread, h3.read_unread, h4.read_unread, h6.read_unread,
    View.ld_unit_zero (S := S512x1) origin2, View.ld_unit_zero (S := S1x2048) origin2]

end Cert.KernelIdeal.Risk

end
-- ==== Proof.TileSum.lean ====
/-
  One column tile's contribution, index by index, over the extended reals. For a row with survival time
  `a` and a column with survival time `b` the risk-set indicator is 1 when `b ≥ a` and 0 otherwise; a
  tile of 2048 columns adds to row `p` of the accumulator the sum over its columns of the indicator times the
  column's weight `exp θ`. The body forms the indicator by comparing, widening the bit to a word and
  converting the word to a float; the word of a bit is 0 or 1, so the float is the bit's value.
-/
import proofs.«137045_j65515431133625_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx

namespace Cert.KernelIdeal.Risk

open Cert.KernelIdeal Cert.KernelIdeal.Gen

/-- The risk-set indicator: 1 when `a ≥ b`, else 0 (the comparison's bit as a number). -/
def atRisk (a b : EReal) : EReal := (((Ideal.cmp .oge a b).toNat : ℝ) : EReal)

/-- A bit widened to a word, read as a signed integer, is the bit's value. -/
theorem bit_widen (b : BitVec 1) : (b.setWidth 32).toInt = (b.toNat : ℤ) := by
  revert b; decide

/-- The body's mask entry — compare, widen, convert — is the indicator. -/
theorem kernel_mask (a b : Ideal .f32) :
    FloatOps.sitofp (F := Ideal) .f32 ((FloatOps.cmpf (F := Ideal) .oge a b).setWidth 32) = atRisk a b := by
  show (((((Ideal.cmp .oge a b).setWidth 32).toInt : ℤ) : ℝ) : EReal) = _
  rw [bit_widen]; rfl

/-- The block stored at a first tile is all zeros. -/
theorem zero_block (y : S512x1.Idx) : k0_pay1 (F := Ideal) y = 0 := by
  unfold k0_pay1
  rw [shapeCast_self]
  exact Ideal.ofBits_zero_f32

/-- The body's sum along the lanes of a 512 × 2048 tile, at row `p`, is the sum over the 2048 columns. -/
theorem lane_sum (v : FVec Ideal S512x2048 .f32) (hφ : FKind.Formats .f32) (hacc : (0x00000000#32 : BitVec 32) = 0x00000000#32) (p : Fin 512) :
    multiReduction .add [1] S512 v 0x00000000#32 reduces_S512x2048_S512 hφ hacc (ix1 p) = ∑ k : Fin 2048, v (ix2 p k) := by
  refine (Ideal.multiReduction_add_single v 0x00000000#32 reduces_S512x2048_S512 hφ hacc (ix1 p)).trans ?_
  refine Finset.sum_congr rfl fun k _ => congrArg v ?_
  funext a
  match a with
  | ⟨0, _⟩ => rfl
  | ⟨1, _⟩ => rfl

/-- A column repeated along the lanes reads its row's entry. -/
theorem col_bcast (x : FVec Ideal S512x1 .f32) (p : Fin 512) (k : Fin 2048) :
    broadcastTo S512x2048 x broadcasts_S512x1_S512x2048 (ix2 p k) = x (ix2 p (0 : Fin 1)) := by
  refine broadcastTo_apply x _ (ix2 p k) (ix2 p (0 : Fin 1)) fun ax => ?_
  match ax with
  | ⟨0, _⟩ => rfl
  | ⟨1, _⟩ => rfl

/-- A vector of 512 row sums viewed as a 512 × 1 column reads the row's sum. -/
theorem keepdims (x : FVec Ideal S512 .f32) (p : Fin 512) (q : Fin 1) :
    shapeCast S512x1 x shapeCasts_S512_S512x1 (ix2 p q) = x (ix1 p) := by
  refine shapeCast_apply x _ _ _ ?_
  rw [Shape.rowMajor_val_two, Shape.rowMajor_val_one]
  show p.val = p.val * 1 + q.val
  have := q.isLt; omega

/-- THE TILE STEP: the stored column is the accumulator plus, per row, the tile's sum of indicator × weight. -/
theorem tile_add (x0 : Vec Ideal S512x1 .f32) (x1 x2 : Vec Ideal S1x2048 .f32) (acc : Vec Ideal S512x1 .f32) (p : Fin 512) (q : Fin 1) :
    k0_pay2 x0 x1 x2 acc (ix2 p q)
      = acc (ix2 p q) + ∑ k : Fin 2048, atRisk (x1 (ix2 (0 : Fin 1) k)) (x0 (ix2 p (0 : Fin 1))) * x2 (ix2 (0 : Fin 1) k) := by
  unfold k0_pay2
  simp only [shapeCast_self]
  rw [addf_apply, keepdims, lane_sum]
  refine congrArg (acc (ix2 p q) + ·) (Finset.sum_congr rfl fun k _ => ?_)
  rw [mulf_apply, sitofp_apply, extui_apply, cmpf_apply, col_bcast, broadcastTo_1b_ab_apply, broadcastTo_1b_ab_apply, kernel_mask]

end Cert.KernelIdeal.Risk

end
-- ==== Proof.RiskColumn.lean ====
/-
  The output column of the kernel region, as one function of the three arrays the region reads.
  The grid is 16 row blocks × 4 column tiles, visited row block by row block; point `n` is row block
  `n / 4`, column tile `n % 4`. Row `p` of the row block is row `512·(n/4) + p` of the 8192 survival
  times, column `k` of the tile is column `2048·(n%4) + k`. The scratch column restarts from zero at
  tile 0 and gains one tile's contribution per point, so after point `n` its row `p` holds the sum of
  tiles `0 … n % 4` of that row (induction on the point); at tile 3 that is the full row, which is copied
  to the output block and written back, and the sixteen written blocks tile the output column.
-/
import proofs.«137045_j65515431133625_1_alg».proof.Proof.Pieces
import proofs.«137045_j65515431133625_1_alg».proof.Proof.TileSum

noncomputable section

open Idealize.ShloMosaic Idealize.ShloMosaic.TcCoe Idealize.SL.Sem Idealize.ShloMosaic.ValueIdx

namespace Cert.KernelIdeal.Risk

open Cert.KernelIdeal Cert.KernelIdeal.Gen

variable (m : (ℓ : Loc nD τ sig) → Buf (Elt Ideal) ℓ)

/-- The survival times as a column, as a row, and the weights `exp θ` as a row: the region's three inputs. -/
abbrev timesCol (c : Dev nD) : Vec Ideal S8192x1 .f32 := V m c main_v1
abbrev timesRow (c : Dev nD) : Vec Ideal S1x8192 .f32 := V m c main_v2
abbrev weightsRow (c : Dev nD) : Vec Ideal S1x8192 .f32 := V m c main_v4

/-- The three input blocks of point `t`, at their literal shapes. -/
abbrev rowsBlk (c : Dev nD) (t : Fin cfg0.N) : Vec Ideal S512x1 .f32 := iblk m c 0 t
abbrev colsBlk (c : Dev nD) (t : Fin cfg0.N) : Vec Ideal S1x2048 .f32 := iblk m c 1 t
abbrev wtsBlk (c : Dev nD) (t : Fin cfg0.N) : Vec Ideal S1x2048 .f32 := iblk m c 2 t

/-- Row `p` of point `n`'s row block, and column `k` of tile `s`, in the whole arrays. -/
def rowOf (n : ℕ) (p : Fin 512) : Fin 8192 := ⟨512 * (n / 4 % 16) + p.val, by have := p.isLt; omega⟩
def colOf (s : ℕ) (k : Fin 2048) : Fin 8192 := ⟨2048 * (s % 4) + k.val, by have := k.isLt; omega⟩

/-- Where each window's block sits at point `t`: the row windows at block `t / 4`, the column windows at
    block `t % 4` (decided over the 64 points). -/
theorem index_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val / 4 ∧ win0_3.index t (1 : Fin 2) = 0 :=
  (by decide +kernel : ∀ t : Fin grid0.N, _)

/-- A block's entry is the array's entry at the block's offset plus the local coordinate. -/
theorem rowsBlk_apply (c : Dev nD) (t : Fin cfg0.N) (p : Fin 512) (u : Fin 1) :
    rowsBlk m c t (ix2 p u) = timesCol m c (ix2 (rowOf t.val p) (0 : Fin 1)) := by
  have hN : t.val < 64 := lt_of_lt_of_eq t.isLt (show cfg0.N = 64 from N_0)
  show ((cfg0.win 0).blk t).view.read (Elt Ideal) (V m c (Pipeline.arrRef spec0 0)) (ix2 p u) = _
  rw [View.read_apply]
  show V m c main_v1 _ = V m c main_v1 _
  congr 1
  funext a
  apply Fin.ext
  match a with
  | ⟨0, _⟩ =>
    show win0_0.index t (0 : Fin 2) * 512 + 1 * p.val = 512 * (t.val / 4 % 16) + p.val
    rw [(index_facts t).1]; omega
  | ⟨1, _⟩ =>
    show win0_0.index t (1 : Fin 2) * 1 + 1 * u.val = 0
    rw [(index_facts t).2.1]; omega

theorem colsBlk_apply (c : Dev nD) (t : Fin cfg0.N) (u : Fin 1) (k : Fin 2048) :
    colsBlk m c t (ix2 u k) = timesRow m c (ix2 (0 : Fin 1) (colOf t.val k)) := by
  show ((cfg0.win 1).blk t).view.read (Elt Ideal) (V m c (Pipeline.arrRef spec0 1)) (ix2 u k) = _
  rw [View.read_apply]
  show V m c main_v2 _ = V m c main_v2 _
  congr 1
  funext a
  apply Fin.ext
  match a with
  | ⟨0, _⟩ =>
    show win0_1.index t (0 : Fin 2) * 1 + 1 * u.val = 0
    rw [(index_facts t).2.2.1]; omega
  | ⟨1, _⟩ =>
    show win0_1.index t (1 : Fin 2) * 2048 + 1 * k.val = 2048 * (t.val % 4) + k.val
    rw [(index_facts t).2.2.2.1]; omega

theorem wtsBlk_apply (c : Dev nD) (t : Fin cfg0.N) (u : Fin 1) (k : Fin 2048) :
    wtsBlk m c t (ix2 u k) = weightsRow m c (ix2 (0 : Fin 1) (colOf t.val k)) := by
  show ((cfg0.win 2).blk t).view.read (Elt Ideal) (V m c (Pipeline.arrRef spec0 2)) (ix2 u k) = _
  rw [View.read_apply]
  show V m c main_v4 _ = V m c main_v4 _
  congr 1
  funext a
  apply Fin.ext
  match a with
  | ⟨0, _⟩ =>
    show win0_2.index t (0 : Fin 2) * 1 + 1 * u.val = 0
    rw [(index_facts t).2.2.2.2.1]; omega
  | ⟨1, _⟩ =>
    show win0_2.index t (1 : Fin 2) * 2048 + 1 * k.val = 2048 * (t.val % 4) + k.val
    rw [(index_facts t).2.2.2.2.2.1]; omega

/-- Tile `s`'s contribution to row `r`: the sum over the tile's 2048 columns of indicator × weight. -/
def tile (c : Dev nD) (r : Fin 8192) (s : ℕ) : EReal :=
  ∑ k : Fin 2048, atRisk (timesRow m c (ix2 (0 : Fin 1) (colOf s k))) (timesCol m c (ix2 r (0 : Fin 1))) * weightsRow m c (ix2 (0 : Fin 1) (colOf s k))

/-- One point adds, to row `p` of the accumulator, its tile's contribution to that row. -/
theorem point_add (c : Dev nD) (t : Fin cfg0.N) (acc : Vec Ideal S512x1 .f32) (p : Fin 512) (u : Fin 1) :
    k0_pay2 (rowsBlk m c t) (colsBlk m c t) (wtsBlk m c t) acc (ix2 p u) = acc (ix2 p u) + tile m c (rowOf t.val p) t.val := by
  rw [tile_add]
  unfold tile
  simp only [rowsBlk_apply, colsBlk_apply, wtsBlk_apply]

/-- What the scratch and the output hold after point `t`, by the point's case: restarted at tile 0,
    continued otherwise; the output is the scratch's copy at tile 3. -/
theorem scratch_first (c : Dev nD) (t : Fin cfg0.N) (h0 : t.val % 4 = 0) :
    (outsAt0 m c t.val t.isLt).2 = k0_pay2 (rowsBlk m c t) (colsBlk m c t) (wtsBlk m c t) (k0_pay1 (F := Ideal)) := by
  have h1 : ¬t.val % 4 = 3 := by omega
  rw [outsAt0_A m c t h0 h1]
  dsimp only
  exact scratch_reset (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (rowsBlk m c t) (colsBlk m c t) (wtsBlk m c t)

theorem scratch_next (c : Dev nD) (t : Fin cfg0.N) (h0 : ¬t.val % 4 = 0) :
    (outsAt0 m c t.val t.isLt).2 = k0_pay2 (rowsBlk m c t) (colsBlk m c t) (wtsBlk m c t)
      (outsAt0 m c (t.val - 1) (Nat.lt_of_le_of_lt (Nat.sub_le _ _) t.isLt)).2 := by
  by_cases h1 : t.val % 4 = 3
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (rowsBlk m c t) (colsBlk m c t) (wtsBlk m c t) (outsAt0 m c (t.val - 1) (Nat.lt_of_le_of_lt (Nat.sub_le _ _) t.isLt)).2
  · rw [outsAt0_B m c t h0 h1]
    dsimp only
    exact scratch_step (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (rowsBlk m c t) (colsBlk m c t) (wtsBlk m c t) (outsAt0 m c (t.val - 1) (Nat.lt_of_le_of_lt (Nat.sub_le _ _) t.isLt)).2

theorem out_at_last (c : Dev nD) (t : Fin cfg0.N) (h1 : t.val % 4 = 3) :
    (outsAt0 m c t.val t.isLt).1 = k0_pay2 (rowsBlk m c t) (colsBlk m c t) (wtsBlk m c t)
      (outsAt0 m c (t.val - 1) (Nat.lt_of_le_of_lt (Nat.sub_le _ _) t.isLt)).2 := by
  have h0 : ¬t.val % 4 = 0 := by omega
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (rowsBlk m c t) (colsBlk m c t) (wtsBlk m c t) (outsAt0 m c (t.val - 1) (Nat.lt_of_le_of_lt (Nat.sub_le _ _) t.isLt)).2

/-- A tile's contribution depends on the tile number mod 4 only. -/
theorem tile_mod (c : Dev nD) (r : Fin 8192) (s : ℕ) : tile m c r s = tile m c r (s % 4) := by
  unfold tile colOf; simp only [Nat.mod_mod]

/-- The next point of the same row block names the same rows. -/
theorem rowOf_succ (n : ℕ) (p : Fin 512) (h : ¬(n + 1) % 4 = 0) : rowOf (n + 1) p = rowOf n p :=
  Fin.ext (by show 512 * ((n + 1) / 4 % 16) + p.val = 512 * (n / 4 % 16) + p.val; omega)

/-- THE RUNNING SUM: after point `n` the scratch's row `p` is the sum of tiles `0 … n % 4` of its row. -/
theorem scratch_at (c : Dev nD) : ∀ (n : ℕ) (h : n < cfg0.N) (p : Fin 512) (u : Fin 1),
    (outsAt0 m c n h).2 (ix2 p u) = ∑ s ∈ Finset.range (n % 4 + 1), tile m c (rowOf n p) s
  | 0, h, p, u => by
    rw [scratch_first m c ⟨0, h⟩ rfl, point_add, zero_block, zero_add]
    show tile m c (rowOf 0 p) 0 = ∑ s ∈ Finset.range 1, tile m c (rowOf 0 p) s
    rw [Finset.sum_range_one]
  | n + 1, h, p, u => by
    by_cases h0 : (n + 1) % 4 = 0
    · rw [scratch_first m c ⟨n + 1, h⟩ h0, point_add, zero_block, zero_add]
      show tile m c (rowOf (n + 1) p) (n + 1) = ∑ s ∈ Finset.range ((n + 1) % 4 + 1), tile m c (rowOf (n + 1) p) s
      rw [h0, Finset.sum_range_one, tile_mod, h0]
    · rw [scratch_next m c ⟨n + 1, h⟩ h0, point_add]
      show (outsAt0 m c n _).2 (ix2 p u) + tile m c (rowOf (n + 1) p) (n + 1) = ∑ s ∈ Finset.range ((n + 1) % 4 + 1), tile m c (rowOf (n + 1) p) s
      have e : (n + 1) % 4 = n % 4 + 1 := by omega
      rw [scratch_at c n _ p u, rowOf_succ n p h0, e, Finset.sum_range_succ _ (n % 4 + 1), tile_mod m c _ (n + 1), e]

/-- The finished column: row `r` holds the sum of its four tiles. -/
def riskCol (c : Dev nD) : Vec Ideal S8192x1 .f32 := fun y => ∑ s ∈ Finset.range 4, tile m c ⟨(y 0).val, idx2_lt0 y⟩ s

/-- At tile 3 the output block's row `p` is the full four-tile sum of its row. -/
theorem out_at (c : Dev nD) (t : Fin cfg0.N) (h1 : t.val % 4 = 3) (p : Fin 512) (u : Fin 1) :
    (outsAt0 m c t.val t.isLt).1 (ix2 p u) = ∑ s ∈ Finset.range 4, tile m c (rowOf t.val p) s := by
  rw [out_at_last m c t h1, point_add, scratch_at m c (t.val - 1) _ p u]
  have e : (t.val - 1) % 4 = 2 := by omega
  have er : rowOf (t.val - 1) p = rowOf t.val p :=
    Fin.ext (by show 512 * ((t.val - 1) / 4 % 16) + p.val = 512 * (t.val / 4 % 16) + p.val; omega)
  rw [e, er, tile_mod m c _ t.val, h1]
  exact (Finset.sum_range_succ _ 3).symm

/-- What a write-back point writes is its block of the finished column. -/
theorem flushed_eq (c : Dev nD) (t : Fin cfg0.N) (hf : (cfg0.win 3).flush t = true) :
    (dats m 0 c).flushed 3 t = ((cfg0.win 3).blk t).view.read (Elt Ideal) (riskCol m c) := by
  have h1 : t.val % 4 = 3 := (flush0_3 t).mp hf
  have hN : t.val < 64 := lt_of_lt_of_eq t.isLt (show cfg0.N = 64 from N_0)
  show (cfg0.win 3).cut (grid0.coords t) ((dats m 0 c).after 3 t) = _
  rw [after0_3]
  funext j
  obtain ⟨p, u, rfl⟩ : ∃ (p : Fin 512) (u : Fin 1), j = ix2 p u := ⟨j 0, j 1, eq_ix2 j⟩
  show (outsAt0 m c t.val t.isLt).1 (ix2 p u) = riskCol m c (((cfg0.win 3).blk t).view.emb (ix2 p u))
  rw [out_at m c t h1 p u]
  unfold riskCol
  refine Finset.sum_congr rfl fun s _ => congrArg (fun r => tile m c r s) (Fin.ext ?_)
  show 512 * (t.val / 4 % 16) + p.val = win0_3.index t (0 : Fin 2) * 512 + 1 * p.val
  rw [(index_facts t).2.2.2.2.2.2.1]; omega

/-- Membership in point `t`'s output block, coordinate by coordinate. -/
theorem mem_out_blk (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v5).slice (win0_3.rect t)).set ↔ _
  rw [View.set_slice_whole, Rect.mem_set_unit]
  exact Iff.rfl

/-- Row `r` is written back by the last tile of its row block, point `4·(r / 512) + 3`. -/
theorem out_cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 64 := N_0
  have ht : 4 * ((i 0).val / 512) + 3 < cfg0.N := by omega
  refine ⟨⟨4 * ((i 0).val / 512) + 3, ht⟩, (flush0_3 _).mpr (by show (4 * ((i 0).val / 512) + 3) % 4 = 3; omega), ?_⟩
  rw [mem_out_blk]
  obtain ⟨-, -, -, -, -, -, e0, e1⟩ := index_facts ⟨4 * ((i 0).val / 512) + 3, ht⟩
  intro a
  match a with
  | ⟨0, _⟩ =>
    show win0_3.index ⟨4 * ((i 0).val / 512) + 3, ht⟩ (0 : Fin 2) * 512 ≤ (i 0).val ∧ (i 0).val < win0_3.index ⟨4 * ((i 0).val / 512) + 3, ht⟩ (0 : Fin 2) * 512 + 512
    rw [e0]; show (4 * ((i 0).val / 512) + 3) / 4 * 512 ≤ (i 0).val ∧ (i 0).val < (4 * ((i 0).val / 512) + 3) / 4 * 512 + 512; omega
  | ⟨1, _⟩ =>
    show win0_3.index ⟨4 * ((i 0).val / 512) + 3, ht⟩ (1 : Fin 2) * 1 ≤ (i 1).val ∧ (i 1).val < win0_3.index ⟨4 * ((i 0).val / 512) + 3, ht⟩ (1 : Fin 2) * 1 + 1
    rw [e1]; omega

/-- So the output array ends holding the finished column. -/
theorem out_final (c : Dev nD) : (dats m 0 c).arrAt 3 cfg0.N = riskCol m c :=
  (dats m 0 c).arrAt_eq_of_cover 3 (riskCol m c) (flushed_eq m c) out_cover

end Cert.KernelIdeal.Risk

end
-- ==== Proof.LibColumn.lean ====
/-
  A vector of length `a` and the `a × 1` column with the same entries: a reshape between the two keeps
  every entry at its row, in either direction. Generic in the length and in the entry type.
-/
import Idealize.ShloMosaic.Lib.Pipeline.Value
import Idealize.ShloMosaic.Lib.ValueIdx

namespace Cert.LibColumn

open Idealize.ShloMosaic Idealize.ShloMosaic.ValueIdx

/-- A length-`a` vector reshaped to an `a × 1` column reads, at row `p` (whatever the unit coordinate), the
    vector's entry `p`: both sit at row-major position `p`. -/
theorem col_of_vec {a : ℕ} {α : Type} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    rw [Shape.rowMajor_val_two, Shape.rowMajor_val_one]
    show p.val = p.val * 1 + q.val
    have := q.isLt; omega)

/-- An `a × 1` column reshaped to a length-`a` vector reads, at `p`, the column's row `p`. -/
theorem vec_of_col {a : ℕ} {α : Type} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumn
-- ==== Proof.KernelRun.lean ====
/-
  The idealized kernel program, run and read. Before the region the host reshapes the survival times into a
  column and a row and takes `exp θ` as a row; after it, the host reshapes the region's output column into the
  vector of risk sums and finishes with `−mean((θ − log risk) · censor)`, written here once as `loss`. So the
  program's result is `loss θ risk censor` with `risk[r]` the sum of the four column tiles of row `r`; and the
  four tiles of 2048 columns are together all 8192 columns, so `risk[r] = Σₖ 1[t[k] ≥ t[r]] · exp θ[k]`.
-/
import proofs.«137045_j65515431133625_1_alg».proof.Proof.RiskColumn
import proofs.«137045_j65515431133625_1_alg».proof.Proof.LibColumn
import Idealize.ShloMosaic.Lib.StableHlo.Run

noncomputable section

open Idealize.ShloMosaic Idealize.ShloMosaic.TcCoe Idealize.SL.Sem Idealize.ShloMosaic.ValueIdx

namespace Cert.KernelIdeal.Risk

open Cert.KernelIdeal Cert.KernelIdeal.Gen Cert.LibColumn

variable (m : (ℓ : Loc nD τ sig) → Buf (Elt Ideal) ℓ) (ρ : Dev nD → PrngReg)

/-- The region's three inputs and θ, from the arguments: reshapes, and one exponential. -/
theorem timesCol_eq (c : Dev nD) :
    timesCol m c = shapeCast S8192x1 (m ((c : Thread nD τ).loc main_arg1)) shapeCasts_S8192_S8192x1 := by
  show StableHlo.after hostOps0 (fun b => m (c, b)) (Proc.devRef .tc main_v1) = _
  after_results; rfl

theorem timesRow_eq (c : Dev nD) :
    timesRow m c = shapeCast S1x8192 (m ((c : Thread nD τ).loc main_arg1)) shapeCasts_S8192_S1x8192 := by
  show StableHlo.after hostOps0 (fun b => m (c, b)) (Proc.devRef .tc main_v2) = _
  after_results; rfl

theorem weightsRow_eq (c : Dev nD) :
    weightsRow m c = shapeCast S1x8192 (Host.exp (F := Ideal) (shapeCast S8192 (m ((c : Thread nD τ).loc main_arg0)) shapeCasts_S8192x1_S8192 : FVec Ideal S8192 .f32)) shapeCasts_S8192_S1x8192 := by
  show StableHlo.after hostOps0 (fun b => m (c, b)) (Proc.devRef .tc main_v4) = _
  after_results; rfl

theorem theta_eq (c : Dev nD) :
    (V m c main_v0 : FVec Ideal S8192 .f32) = shapeCast S8192 (m ((c : Thread nD τ).loc main_arg0)) shapeCasts_S8192x1_S8192 := by
  show StableHlo.after hostOps0 (fun b => m (c, b)) (Proc.devRef .tc main_v0) = _
  after_results; rfl

/-- The host's last lines: `−(Σᵢ (θᵢ − log riskᵢ) · censorᵢ) / 8192`. -/
def loss (θ risk cen : FVec Ideal S8192 .f32) : FVec Ideal S_ .f32 :=
  Host.negf (Host.divf (Host.reduceAdd (mulf (subf θ (Host.log risk)) cen) (constant (F := Ideal) S_ .f32 0x00000000#32) reducesTo_S8192_S_d0 h_S_) (constant (F := Ideal) S_ .f32 0x46000000#32))

/-- The result buffer after the lines that follow the region: the loss of θ, the reshaped output column and
    the censoring vector. -/
theorem result_eq (c : Dev nD) :
    Pipeline.afterTail₀ cfgs (dats m) 0 (V0 m) [hostOps1] c main_v12
      = loss (shapeCast S8192 (m ((c : Thread nD τ).loc main_arg0)) shapeCasts_S8192x1_S8192)
          (shapeCast S8192 (riskCol m c) shapeCasts_S8192x1_S8192) (m ((c : Thread nD τ).loc main_arg2)) := by
  unfold Pipeline.afterTail₀
  show StableHlo.after hostOps1 _ (Proc.devRef .tc main_v12) = _
  after_results
  have eθ : Pipeline.withArrays (cfgs 0).spec c (V0 m c) (fun w => (dats m 0 c).arrAt w (cfgs 0).N) (Proc.devRef .tc main_v0)
      = shapeCast S8192 (m ((c : Thread nD τ).loc main_arg0)) shapeCasts_S8192x1_S8192 :=
    (Pipeline.withArrays_of_ne _ c (V0 m c) _ main_v0 (by exact (by decide : ∀ w, Pipeline.arrRef spec0 w ≠ main_v0))).trans (theta_eq m c)
  have ec : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have er : Pipeline.withArrays (cfgs 0).spec c (V0 m c) (fun w => (dats m 0 c).arrAt w (cfgs 0).N) (Proc.devRef .tc main_v5)
      = riskCol m c :=
    (Pipeline.withArrays_arr spec0 launch0.win.arr_inj c _ _ 3).trans (out_final m c)
  rw [eθ, ec, er]
  rfl

/-- Every execution ends with the result at that loss and the three arguments unchanged. -/
theorem run : θ_run defs (onTc (τ := τ) (main (F := Ideal))) ⟨m, fun _ => 0, ρ⟩ fun r => ∀ c : Dev nD,
      r.2.mem ((c.tc : Thread nD τ).loc main_v12)
        = loss (shapeCast S8192 (m ((c : Thread nD τ).loc main_arg0)) shapeCasts_S8192x1_S8192)
            (shapeCast S8192 (riskCol m c) shapeCasts_S8192x1_S8192) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- Four tiles of 2048 columns are all 8192 columns: column `k` of tile `s` is column `2048 s + k`. -/
theorem sum_tiles {M : Type} [AddCommMonoid M] (f : Fin 8192 → M) :
    ∑ s ∈ Finset.range 4, ∑ k : Fin 2048, f (colOf s k) = ∑ j : Fin 8192, f j := by
  rw [Finset.sum_range (fun s => ∑ k : Fin 2048, f (colOf s k)),
    ← Fintype.sum_prod_type' (fun (s : Fin 4) (k : Fin 2048) => f (colOf s.val k))]
  refine Fintype.sum_equiv (finProdFinEquiv (m := 4) (n := 2048)) _ _ fun x => congrArg f (Fin.ext ?_)
  show 2048 * (x.1.val % 4) + x.2.val = x.2.val + 2048 * x.1.val
  have := x.1.isLt; omega

/-- Row `r` of the kernel's risk vector is the sum over every column of indicator × weight. -/
theorem kernel_risk (c : Dev nD) (r : Fin 8192) :
    shapeCast S8192 (riskCol m c) shapeCasts_S8192x1_S8192 (ix1 r)
      = ∑ k : Fin 8192, atRisk (m ((c : Thread nD τ).loc main_arg1) (ix1 k)) (m ((c : Thread nD τ).loc main_arg1) (ix1 r))
          * FloatOps.hostUnary (F := Ideal) (φ := .f32) .exp (m ((c : Thread nD τ).loc main_arg0) (ix2 k (0 : Fin 1))) := by
  rw [vec_of_col]
  unfold riskCol tile
  rw [← sum_tiles]
  refine Finset.sum_congr rfl fun s _ => Finset.sum_congr rfl fun k _ => ?_
  rw [timesRow_eq, timesCol_eq, weightsRow_eq, shapeCast_a_1a_apply, shapeCast_a_1a_apply, col_of_vec]
  show _ * FloatOps.hostUnary (F := Ideal) (φ := .f32) .exp (shapeCast S8192 (m ((c : Thread nD τ).loc main_arg0)) shapeCasts_S8192x1_S8192 (ix1 (colOf s k))) = _
  rw [vec_of_col]

end Cert.KernelIdeal.Risk

end
-- ==== Proof.RefRisk.lean ====
/-
  The reference's risk sums, index by index. The reference builds the full 8192 × 8192 mask
  `survtime[k] ≥ survtime[r]`, converts it to floats, multiplies by the row of weights `exp θ[k]` and sums
  along `k`, starting from zero. Read at row `r` this is the plain sum over all 8192 columns of
  weight × indicator: every broadcast only repeats an entry, and the starting zero adds nothing.
-/
import proofs.«137045_j65515431133625_1_alg».proof.Proof.Gen.ReferenceIdeal.Read
import proofs.«137045_j65515431133625_1_alg».proof.Proof.TileSum

noncomputable section

open Idealize.ShloMosaic Idealize.ShloMosaic.TcCoe Idealize.SL.Sem Idealize.ShloMosaic.ValueIdx

namespace Cert.ReferenceIdeal.Risk

open Cert.ReferenceIdeal Cert.ReferenceIdeal.Gen Cert.ReferenceIdeal.Read
open Cert.KernelIdeal.Risk (atRisk)

/-- Row `r` of the reference's risk vector: the sum over every column `k` of `exp θ[k]` times the indicator
    of `survtime[k] ≥ survtime[r]`. -/
theorem ref_risk (x0 : (⟨S8192x1, .f32⟩ : BufTy).Contents (Elt Ideal)) (x1 : (⟨S8192, .f32⟩ : BufTy).Contents (Elt Ideal)) (r : Fin 8192) :
    val_main_v11 (F := Ideal) x0 x1 (ix1 r)
      = ∑ k : Fin 8192, FloatOps.hostUnary (F := Ideal) (φ := .f32) .exp (x0 (ix2 k (0 : Fin 1))) * atRisk (x1 (ix1 k)) (x1 (ix1 r)) := by
  rw [val_main_v11_apply, val_main_cst_apply]
  show Ideal.ofBits .f32 0x00000000#32 + _ = _
  rw [Ideal.ofBits_zero_f32, zero_add]
  refine Finset.sum_congr rfl fun k _ => ?_
  rw [val_main_v10_apply, val_main_v9_apply, val_main_v8_apply, val_main_v7_apply, val_main_v0_apply,
    val_main_v6_apply, val_main_v5_apply, val_main_v3_apply, val_main_v1_apply, val_main_v4_apply, val_main_v2_apply]
  have e0 : idx_main_v0 (idx_main_v8 (idx_main_v9 (idx_main_v11 (ix1 r) k))) = ix2 k (0 : Fin 1) :=
    funext fun a => Fin.ext (by match a with | ⟨0, _⟩ => (show k.val / 1 = k.val; omega) | ⟨1, _⟩ => rfl)
  have e1 : idx_main_v1 (idx_main_v3 (idx_main_v11 (ix1 r) k)) = ix1 k :=
    funext fun a => Fin.ext (by match a with | ⟨0, _⟩ => rfl)
  have e2 : idx_main_v2 (idx_main_v4 (idx_main_v11 (ix1 r) k)) = ix1 r :=
    funext fun a => Fin.ext (by match a with | ⟨0, _⟩ => rfl)
  rw [e0, e1, e2]
  rfl

end Cert.ReferenceIdeal.Risk

end
-- ==== Proof.lean ====
/-
  The Cox partial-likelihood loss, kernel against reference, over the extended reals.

  Both programs compute `−mean((θ − log risk) · censor)` over 8192 samples, where `risk[r]` is the sum of the
  weights `exp θ[k]` over the risk set of `r`, the samples `k` with `survtime[k] ≥ survtime[r]`. They differ only in
  how `risk` is formed. The reference materialises the 8192 × 8192 indicator matrix, multiplies it by the row of
  weights and sums each row from zero. The kernel walks a 16 × 4 grid of 512-row by 2048-column tiles; per tile it
  forms the same indicator (compare, widen the bit, convert), multiplies by the tile's weights, sums along the
  columns, and adds the 512 partial sums into a running column that starts at zero at the first tile of a row block
  and is written out after the fourth.

  Over the extended reals addition is commutative and associative and multiplication commutative, whatever the
  values, so row `r`'s four tile sums, added to zero in tile order, are the sum over all 8192 columns, and
  indicator × weight is weight × indicator: the two risk vectors are equal entry by entry, and the identical
  closing lines (reshape, log, subtract, multiply, sum, divide by 8192, negate) give equal losses. No use is made
  of the inputs being finite.

  The two kernel programs' termination and unchanged arguments are the generated frames; the reference's is its
  generated run; the idealisation rewrote nothing.
-/
import proofs.«137045_j65515431133625_1_alg».proof.Defs
import proofs.«137045_j65515431133625_1_alg».proof.Proof.Gen.Kernel
import proofs.«137045_j65515431133625_1_alg».proof.Proof.Gen.Kernel.Skeleton
import proofs.«137045_j65515431133625_1_alg».proof.Proof.Gen.Kernel.Launch
import proofs.«137045_j65515431133625_1_alg».proof.Proof.Gen.Kernel.Points
import proofs.«137045_j65515431133625_1_alg».proof.Proof.Gen.Kernel.Frame
import proofs.«137045_j65515431133625_1_alg».proof.Proof.Gen.KernelIdeal
import proofs.«137045_j65515431133625_1_alg».proof.Proof.Gen.KernelIdeal.Skeleton
import proofs.«137045_j65515431133625_1_alg».proof.Proof.Gen.KernelIdeal.Launch
import proofs.«137045_j65515431133625_1_alg».proof.Proof.Gen.KernelIdeal.Points
import proofs.«137045_j65515431133625_1_alg».proof.Proof.Gen.KernelIdeal.Frame
import proofs.«137045_j65515431133625_1_alg».proof.Proof.Gen.ReferenceIdeal
import proofs.«137045_j65515431133625_1_alg».proof.Proof.Gen.Pre_finite_inputs
import proofs.«137045_j65515431133625_1_alg».proof.Proof.Gen.ReferenceIdeal.Run
import proofs.«137045_j65515431133625_1_alg».proof.Proof.Gen.ReferenceIdeal.Read
import proofs.«137045_j65515431133625_1_alg».proof.Proof.KernelRun
import proofs.«137045_j65515431133625_1_alg».proof.Proof.RefRisk
import Idealize.ShloMosaic.Adequacy
import Idealize.ShloMosaic.Init

noncomputable section

namespace Cert.Proof

open Idealize.ShloMosaic Idealize.ShloMosaic.TcCoe Idealize.SL.Sem Idealize.ShloMosaic.ValueIdx

/-- THE TWO RISK VECTORS ARE ONE: the kernel's output column, reshaped to a vector, is the reference's row sums.
    At row `r` both are the sum over all 8192 columns of the indicator of `survtime[k] ≥ survtime[r]` and the weight
    `exp θ[k]`; the factors stand in opposite orders. -/
theorem risk_eq (m : (ℓ : Loc Cert.KernelIdeal.nD Cert.KernelIdeal.τ Cert.KernelIdeal.sig) → Buf (Elt Ideal) ℓ)
    (c : Dev Cert.KernelIdeal.nD) :
    (shapeCast Cert.KernelIdeal.S8192 (Cert.KernelIdeal.Risk.riskCol m c) Cert.KernelIdeal.Facts₀.shapeCasts_S8192x1_S8192
      : Cert.KernelIdeal.S8192.Idx → EReal)
      = Cert.ReferenceIdeal.Read.val_main_v11 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨r, rfl⟩ : ∃ r : Fin 8192, i = ix1 r := ⟨i 0, eq_ix1 i⟩
  rw [Cert.KernelIdeal.Risk.kernel_risk, Cert.ReferenceIdeal.Risk.ref_risk]
  exact Finset.sum_congr rfl fun k _ => mul_comm _ _

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on θ, the survival times and the censoring vector, both programs end at the same loss:
    the kernel's run leaves `loss θ risk censor` with its tiled `risk`, the reference's the same closing lines over
    its row sums, and the two `risk`s are equal (`risk_eq`). -/
theorem algebraic : Cert.algebraic_KernelIdeal_ReferenceIdeal := by
  intro m ρ m' ρ' _ hagree
  refine ⟨_, Cert.KernelIdeal.Risk.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  show _ = Cert.KernelIdeal.Risk.loss _ _ _
  unfold Cert.KernelIdeal.Risk.loss
  rw [risk_eq m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
